-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S4096x1024 : Shape := ⟨2, ![4096, 1024]⟩
abbrev S4096 : Shape := ⟨1, ![4096]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S32768x1024 .f32) (main_arg1 : FVec F S4096x1024 .f32) (main_arg2 : FVec F S4096 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S32768x1024 : Shape := ⟨2, ![32768, 1024]⟩
abbrev S4096x1024 : Shape := ⟨2, ![4096, 1024]⟩
abbrev S4096 : Shape := ⟨1, ![4096]⟩
abbrev S1024x4x1024 : Shape := ⟨3, ![1024, 4, 1024]⟩
abbrev S_ : Shape := ⟨0, ![]⟩
abbrev S1024x1024 : Shape := ⟨2, ![1024, 1024]⟩
abbrev S1024x4 : Shape := ⟨2, ![1024, 4]⟩
abbrev S1024 : Shape := ⟨1, ![1024]⟩
abbrev S1x1024 : Shape := ⟨2, ![1, 1024]⟩
abbrev S32768x1 : Shape := ⟨2, ![32768, 1]⟩
abbrev S1024x1 : Shape := ⟨2, ![1024, 1]⟩
abbrev S32768 : Shape := ⟨1, ![32768]⟩

abbrev nBuf : Space → Nat
  | .hbm => 20
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S4096x1024, .f32⟩
  | .hbm, ⟨2, _⟩ => ⟨S4096, .f32⟩
  | .hbm, ⟨3, _⟩ => ⟨S1024x4x1024, .f32⟩
  | .hbm, ⟨4, _⟩ => ⟨S_, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x4, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S32768x1, .f32⟩
  | .hbm, ⟨19, _⟩ => ⟨S32768, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1, .f32⟩
  | .local _ .vmem, ⟨5, _⟩ => ⟨S1024x1, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x1024_S1024x4x1024 : S4096x1024.ShapeCasts S1024x4x1024
  reducesTo_S1024x4x1024_S1024x1024_d1 : S1024x4x1024.ReducesTo [1] S1024x1024
  h_S_ : 0 < S_.numel
  bcast_S_S1024x1024 : S_.BroadcastsInDim S1024x1024 (![] : Fin 0 → Fin S1024x1024.rank)
  shapeCasts_S4096_S1024x4 : S4096.ShapeCasts S1024x4
  reducesTo_S1024x4_S1024_d1 : S1024x4.ReducesTo [1] S1024
  bcast_S_S1024 : S_.BroadcastsInDim S1024 (![] : Fin 0 → Fin S1024.rank)
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S32768x1_S32768 : S32768x1.ShapeCasts S32768
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S32768x1.size a
  hwx0_3 : ∀ i : grid0.Coords, EltTy.bits .f32 = 32 ∨ (Rect.block (s := S32768x1) S1024x1.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S4096x1024 : Shape := ⟨2, ![4096, 1024]⟩
abbrev S4096 : Shape := ⟨1, ![4096]⟩
abbrev S1024x4x1024 : Shape := ⟨3, ![1024, 4, 1024]⟩
abbrev S_ : Shape := ⟨0, ![]⟩
abbrev S1024x1024 : Shape := ⟨2, ![1024, 1024]⟩
abbrev S1024x4 : Shape := ⟨2, ![1024, 4]⟩
abbrev S1024 : Shape := ⟨1, ![1024]⟩
abbrev S1x1024 : Shape := ⟨2, ![1, 1024]⟩
abbrev S32768 : Shape := ⟨1, ![32768]⟩

abbrev nBuf : Space → Nat
  | .hbm => 41
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4096x1024, .f32⟩
  | .hbm, ⟨2, _⟩ => ⟨S4096, .f32⟩
  | .hbm, ⟨3, _⟩ => ⟨S1024x4x1024, .f32⟩
  | .hbm, ⟨4, _⟩ => ⟨S_, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x4, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  shapeCasts_S4096x1024_S1024x4x1024 : S4096x1024.ShapeCasts S1024x4x1024
  reducesTo_S1024x4x1024_S1024x1024_d1 : S1024x4x1024.ReducesTo [1] S1024x1024
  h_S_ : 0 < S_.numel
  bcast_S_S1024x1024 : S_.BroadcastsInDim S1024x1024 (![] : Fin 0 → Fin S1024x1024.rank)
  shapeCasts_S4096_S1024x4 : S4096.ShapeCasts S1024x4
  reducesTo_S1024x4_S1024_d1 : S1024x4.ReducesTo [1] S1024
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  reducesTo_S32768x1024_S32768_d1 : S32768x1024.ReducesTo [1] S32768
  dot_S32768x1024_S1024x1024_S32768x1024_1_1_0_0_n_n_wf : DotDims.WF S32768x1024 S1024x1024 S32768x1024 [1] [1] [0] [0] [] []

variable [Facts₀]

def dot_S32768x1024_S1024x1024_S32768x1024_1_1_0_0_n_n : DotDims S32768x1024 S1024x1024 S32768x1024 where
  lhsContracting := [1]
  rhsContracting := [1]
  lhsNonContracting := [0]
  rhsNonContracting := [0]
  lhsBatch := []
  rhsBatch := []
  wf := dot_S32768x1024_S1024x1024_S32768x1024_1_1_0_0_n_n_wf

class Facts : Prop extends Facts₀ where

variable [Facts]
-- ==== Proof.Spec.lean ====
/-
  The function both programs compute, over the extended reals.

  Inputs: an array `x` of 32768 rows and 1024 columns, a pooled weight matrix `wp` (1024 × 1024, entry `(n, k)`
  the mean of four consecutive rows of the weight at column `k`) and a pooled bias `bp` (1024 entries, each the
  mean of four consecutive entries of the bias). For a row `r` and an output feature `n` the pre-activation is

      pre r n = (∑ k, x[r, k] · wp[n, k]) + bp[n],

  the activation is the tanh form of GELU doubled,

      act y = ((1/2 · y) · (1 + tanh (c₂ · (y + c₁ · ((y · y) · y))))) · 2,

  with `c₁`, `c₂` the single-precision words nearest 0.044715 and √(2/π), and the result at row `r` is the
  maximum over the 1024 features of `act (pre r n)`, taken from −∞.

  The two programs differ in the way they bracket the cube: one forms `c₁ · ((y · y) · y)`, the other
  `((c₁ · y) · y) · y`. Multiplication of extended reals is associative, so these agree everywhere, infinite
  values included (`cube_assoc`); no finiteness of the inputs is needed.
-/
import Idealize.ShloMosaic.PureOps.Ideal
import Idealize.ShloMosaic.PureOps.Ideal.Laws
import Idealize.ShloMosaic.Lib.ValueIdx

noncomputable section

namespace Cert.RowMaxSpec

open Idealize.ShloMosaic Idealize.ShloMosaic.ValueIdx

/-- The doubled tanh-GELU of one extended real, with the cube bracketed as `c₁ · ((y · y) · y)`. -/
def act (y : EReal) : EReal :=
  ((Ideal.ofBits .f32 0x3F000000#32 * y)
      * (Ideal.ofBits .f32 0x3F800000#32
          + Ideal.tanh (Ideal.ofBits .f32 0x3F4C422A#32 * (y + Ideal.ofBits .f32 0x3D372713#32 * ((y * y) * y)))))
    * Ideal.ofBits .f32 0x40000000#32

/-- The same with the cube bracketed from the left, `((c₁ · y) · y) · y`. -/
def actLeft (y : EReal) : EReal :=
  ((Ideal.ofBits .f32 0x3F000000#32 * y)
      * (Ideal.ofBits .f32 0x3F800000#32
          + Ideal.tanh (Ideal.ofBits .f32 0x3F4C422A#32 * (y + ((Ideal.ofBits .f32 0x3D372713#32 * y) * y) * y))))
    * Ideal.ofBits .f32 0x40000000#32

/-- A scaled cube does not depend on its bracketing: multiplication of extended reals is associative. -/
theorem cube_assoc (c y : EReal) : ((c * y) * y) * y = c * ((y * y) * y) := by
  simp only [mul_assoc]

/-- Hence the two spellings of the activation are one function. -/
theorem actLeft_eq (y : EReal) : actLeft y = act y := by
  unfold actLeft act
  rw [cube_assoc]

/-- The pre-activation of row `r` at feature `n`: the row of `x` against row `n` of the pooled weight, plus
    the pooled bias at `n`. -/
def pre (x : (⟨2, ![32768, 1024]⟩ : Shape).Idx → EReal) (wp : (⟨2, ![1024, 1024]⟩ : Shape).Idx → EReal)
    (bp : (⟨1, ![1024]⟩ : Shape).Idx → EReal) (r : Fin 32768) (n : Fin 1024) : EReal :=
  (∑ k : Fin 1024, x (ix2 r k) * wp (ix2 n k)) + bp (ix1 n)

/-- The largest activation of row `r` over the 1024 features, from −∞. -/
def rowMax (x : (⟨2, ![32768, 1024]⟩ : Shape).Idx → EReal) (wp : (⟨2, ![1024, 1024]⟩ : Shape).Idx → EReal)
    (bp : (⟨1, ![1024]⟩ : Shape).Idx → EReal) (r : Fin 32768) : EReal :=
  (Finset.univ : Finset (Fin 1024)).fold max (Ideal.ofBits .f32 0xFF800000#32) (fun n => act (pre x wp bp r n))

/-- The result array: one maximum per row. -/
def result (x : (⟨2, ![32768, 1024]⟩ : Shape).Idx → EReal) (wp : (⟨2, ![1024, 1024]⟩ : Shape).Idx → EReal)
    (bp : (⟨1, ![1024]⟩ : Shape).Idx → EReal) : (⟨1, ![32768]⟩ : Shape).Idx → EReal :=
  fun i => rowMax x wp bp (i 0)

end Cert.RowMaxSpec

end
-- ==== Proof.KernelBlock.lean ====
/-
  One grid point of the kernel, read entry by entry.

  A point loads a block `x0` of 1024 rows of `x` (1024 columns), the whole transposed pooled weight `x1`
  (entry `(k, n)` is the pooled weight of feature `n` at column `k`) and the pooled bias as one row `x2`.
  It multiplies `x0` by `x1` into a zero accumulator, adds the bias row to every row, applies the doubled
  tanh-GELU entry by entry, takes each row's maximum over the 1024 features from −∞, and stores the 1024 maxima
  as a column. Narrowing to the shorter float format is the identity on extended reals, so entry `(r, 0)` of
  the stored column is

      max over n of act ((∑ k, x0[r, k] · x1[k, n]) + x2[0, n]).
-/
import proofs.«164807_j58128087384687_1_alg».proof.Proof.Gen.KernelIdeal.Skeleton
import proofs.«164807_j58128087384687_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.RowMaxSpec

/-! ## The matrix product at an entry -/

/-- The left operand is read at the output's row, -/
theorem lhs_axis0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- and at the summation index on its columns; -/
theorem lhs_axis1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- the right operand at the summation index on its rows, -/
theorem rhs_axis0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- and at the output's column. -/
theorem rhs_axis1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Into a zero accumulator the product's entry `(r, n)` is the sum over `k` of `a[r, k] · b[k, n]`. -/
theorem dot_apply (a b : FVec Ideal S1024x1024 .bf16) (r n : Fin 1024) :
    FloatOps.matmul dot_S1024x1024_S1024x1024_S1024x1024_1_0_0_1_n_n none a b (constant S1024x1024 .f32 0x00000000#32) (ix2 r n)
      = ∑ k : Fin 1024, a (ix2 r k) * b (ix2 k n) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r n) ((contrEquiv1 dot_S1024x1024_S1024x1024_S1024x1024_1_0_0_1_n_n 1024 rfl rfl).symm k) = ix2 r k := funext fun c => Fin.ext (by
    match c with
    | ⟨0, _⟩ => exact lhs_axis0 _ _
    | ⟨1, _⟩ => exact (lhs_axis1 _ _).trans hk)
  have er : dot_S1024x1024_S1024x1024_S1024x1024_1_0_0_1_n_n.rhsIdx (ix2 r n) ((contrEquiv1 dot_S1024x1024_S1024x1024_S1024x1024_1_0_0_1_n_n 1024 rfl rfl).symm k) = ix2 k n := funext fun c => Fin.ext (by
    match c with
    | ⟨0, _⟩ => exact (rhs_axis0 _ _).trans hk
    | ⟨1, _⟩ => exact rhs_axis1 _ _)
  rw [el, er]

/-! ## The pre-activation and the activated block -/

/-- The block before the activation: the product plus the bias row under every row. -/
def preBlock (x0 : Vec Ideal S1024x1024 .f32) (x1 : FVec Ideal S1024x1024 .bf16) (x2 : Vec Ideal S1x1024 .f32) : FVec Ideal S1024x1024 .f32 :=
  addf (matmul dot_S1024x1024_S1024x1024_S1024x1024_1_0_0_1_n_n none (truncf .bf16 x0 bitsLt_bf16_f32)
      (shapeCast S1024x1024 x1 shapeCasts_S1024x1024_S1024x1024) (constant S1024x1024 .f32 0x00000000#32))
    (broadcastTo S1024x1024 (shapeCast S1x1024 x2 shapeCasts_S1x1024_S1x1024) broadcasts_S1x1024_S1024x1024)

/-- Its entry `(r, n)`. -/
theorem preBlock_apply (x0 : Vec Ideal S1024x1024 .f32) (x1 : FVec Ideal S1024x1024 .bf16) (x2 : Vec Ideal S1x1024 .f32) (r n : Fin 1024) :
    preBlock x0 x1 x2 (ix2 r n) = (∑ k : Fin 1024, x0 (ix2 r k) * x1 (ix2 k n)) + x2 (ix2 (0 : Fin 1) n) := by
  unfold preBlock
  rw [shapeCast_self, shapeCast_self]
  show FloatOps.matmul dot_S1024x1024_S1024x1024_S1024x1024_1_0_0_1_n_n none (truncf .bf16 x0 bitsLt_bf16_f32) x1 (constant S1024x1024 .f32 0x00000000#32) (ix2 r n)
    + broadcastTo S1024x1024 x2 broadcasts_S1x1024_S1024x1024 (ix2 r n) = _
  rw [dot_apply, broadcastTo_1b_ab_apply]
  rfl

set_option maxRecDepth 65536 in
/-- The payload is the column of row maxima of the activated block. -/
theorem pay_eq (x0 : Vec Ideal S1024x1024 .f32) (x1 : FVec Ideal S1024x1024 .bf16) (x2 : Vec Ideal S1x1024 .f32) :
    k0_pay1 (F := Ideal) x0 x1 x2
      = shapeCast S1024x1 (multiReduction .maximumf [1] S1024 (fun j => act (preBlock x0 x1 x2 j) : FVec Ideal S1024x1024 .f32)
          0xFF800000#32 reduces_S1024x1024_S1024 (.inl rfl) rfl) shapeCasts_S1024_S1024x1 := rfl

/-- The source entry over row `r` at feature `k`. -/
theorem lift_row (h : S1024x1024.Reduces [1] S1024) (r : Fin 1024) (k : Fin (S1024x1024.size 1)) :
    h.lift (ix1 r) k = ix2 r (⟨k.val, k.isLt⟩ : Fin 1024) := by
  funext c; apply Fin.ext
  fin_cases c <;> rfl

/-- A row's maximum over the 1024 features, from −∞: the reduction over the second axis read at row `r`. -/
theorem rowMax_apply (src : FVec Ideal S1024x1024 .f32) (hφ : FKind.Formats .f32)
    (hacc : (0xFF800000#32 : BitVec 32) = FKind.maximumf.neutral .f32 hφ) (r : Fin 1024) :
    multiReduction .maximumf [1] S1024 src 0xFF800000#32 reduces_S1024x1024_S1024 hφ hacc (ix1 r)
      = Finset.fold max (Ideal.ofBits .f32 0xFF800000#32) (fun n : Fin 1024 => src (ix2 r n)) (Finset.univ : Finset (Fin 1024)) := by
  refine (Ideal.multiReduction_maximumf_single src 0xFF800000#32 reduces_S1024x1024_S1024 hφ hacc (ix1 r)).trans ?_
  exact congrArg (fun f => Finset.fold max (Ideal.ofBits .f32 0xFF800000#32) f (Finset.univ : Finset (Fin 1024)))
    (funext fun n => congrArg src (lift_row reduces_S1024x1024_S1024 r n))

/-- THE STORED COLUMN at row `r`: the maximum over the features of the activated pre-activations of that row. A column
    has one entry per row, so the column coordinate `u` is `0` and the entry is the row's maximum. -/
theorem pay_apply (x0 : Vec Ideal S1024x1024 .f32) (x1 : FVec Ideal S1024x1024 .bf16) (x2 : Vec Ideal S1x1024 .f32)
    (r : Fin 1024) (u : Fin 1) :
    k0_pay1 (F := Ideal) x0 x1 x2 (ix2 r u)
      = Finset.fold max (Ideal.ofBits .f32 0xFF800000#32)
          (fun n : Fin 1024 => act ((∑ k : Fin 1024, x0 (ix2 r k) * x1 (ix2 k n)) + x2 (ix2 (0 : Fin 1) n)))
          (Finset.univ : Finset (Fin 1024)) := by
  rw [pay_eq]
  refine (shapeCast_apply _ shapeCasts_S1024_S1024x1 (ix2 r u) (ix1 r) ?_).trans ?_
  · rw [Shape.rowMajor_val_one, Shape.rowMajor_val_two]
    have hu : u.val = 0 := by omega
    show r.val = r.val * 1 + u.val
    omega
  refine (rowMax_apply (fun j => act (preBlock x0 x1 x2 j)) (.inl rfl) rfl r).trans ?_
  exact congrArg (fun f => Finset.fold max (Ideal.ofBits .f32 0xFF800000#32) f (Finset.univ : Finset (Fin 1024)))
    (funext fun n => congrArg act (preBlock_apply x0 x1 x2 r n))

end Cert.KernelIdeal.Block

end
-- ==== Proof.KernelHead.lean ====
/-
  What the kernel's launch finds in the two arrays it reads besides `x`.

  Before the launch the program pools the weight — reshapes its 4096 rows as 1024 groups of four, sums each group
  from zero, divides by four — and the bias likewise; it then transposes the pooled weight (and narrows it to the
  shorter float format, which is the identity on extended reals) and lays the pooled bias out as one row. So the
  second operand holds, at `(k, n)`, the pooled weight of feature `n` at column `k`, and the third, at `(0, n)`,
  the pooled bias of feature `n`.
-/
import proofs.«164807_j58128087384687_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Head

open Cert.KernelIdeal Cert.KernelIdeal.Gen Idealize.ShloMosaic Idealize.ShloMosaic.TcCoe Idealize.SL.Sem
open Idealize.ShloMosaic.StableHlo Idealize.ShloMosaic.ValueIdx

/-- The pooled weight: entry `(n, k)` is a quarter of the sum of rows `4n … 4n+3` of the weight at column `k`. -/
def pooledWeight (w : (⟨S4096x1024, .f32⟩ : BufTy).Contents (Elt Ideal)) : (⟨S1024x1024, .f32⟩ : BufTy).Contents (Elt Ideal) :=
  Host.divf (F := Ideal)
    (Host.reduceAdd (F := Ideal) (shapeCast _ w shapeCasts_S4096x1024_S1024x4x1024) (constant (F := Ideal) S_ .f32 0x00000000#32) reducesTo_S1024x4x1024_S1024x1024_d1 h_S_)
    (broadcastInDim S1024x1024 ![] bcast_S_S1024x1024 (constant (F := Ideal) S_ .f32 0x40800000#32))

/-- The pooled bias: entry `n` is a quarter of the sum of entries `4n … 4n+3` of the bias. -/
def pooledBias (b : (⟨S4096, .f32⟩ : BufTy).Contents (Elt Ideal)) : (⟨S1024, .f32⟩ : BufTy).Contents (Elt Ideal) :=
  Host.divf (F := Ideal)
    (Host.reduceAdd (F := Ideal) (shapeCast _ b shapeCasts_S4096_S1024x4) (constant (F := Ideal) S_ .f32 0x00000000#32) reducesTo_S1024x4_S1024_d1 h_S_)
    (broadcastInDim S1024 ![] bcast_S_S1024 (constant (F := Ideal) S_ .f32 0x40800000#32))

variable (m : (ℓ : Loc nD τ sig) → Buf (Elt Ideal) ℓ)

/-- The kernel's second operand as the launch finds it: the pooled weight transposed. -/
theorem weightT_eq (c : Dev nD) :
    (V m c main_v9 : S1024x1024.Idx → EReal)
      = truncf (F := Ideal) .bf16 (transpose S1024x1024 [1, 0] (pooledWeight (m ((c : Thread nD τ).loc main_arg1))) transposes_S1024x1024_S1024x1024_1_0) bitsLt_bf16_f32 := by
  show StableHlo.after hostOps0 (fun b => m (c, b)) (Proc.devRef .tc main_v9) = _
  after_results
  rfl

/-- Its entry `(k, n)` is the pooled weight at `(n, k)`. -/
theorem weightT_apply (c : Dev nD) (k n : Fin 1024) :
    (V m c main_v9 : S1024x1024.Idx → EReal) (ix2 k n) = pooledWeight (m ((c : Thread nD τ).loc main_arg1)) (ix2 n k) := by
  rw [weightT_eq]
  show transpose S1024x1024 [1, 0] (pooledWeight (m ((c : Thread nD τ).loc main_arg1))) transposes_S1024x1024_S1024x1024_1_0 (ix2 k n) = _
  exact transpose_ix2_apply _ transposes_S1024x1024_S1024x1024_1_0 k n

/-- The kernel's third operand as the launch finds it: the pooled bias as one row. -/
theorem biasRow_eq (c : Dev nD) :
    (V m c main_v10 : S1x1024.Idx → EReal)
      = (shapeCast S1x1024 (pooledBias (m ((c : Thread nD τ).loc main_arg2))) shapeCasts_S1024_S1x1024 : S1x1024.Idx → EReal) := by
  show StableHlo.after hostOps0 (fun b => m (c, b)) (Proc.devRef .tc main_v10) = _
  after_results
  rfl

/-- Its entry `(0, n)` is the pooled bias at `n`. -/
theorem biasRow_apply (c : Dev nD) (u : Fin 1) (n : Fin 1024) :
    (V m c main_v10 : S1x1024.Idx → EReal) (ix2 u n) = pooledBias (m ((c : Thread nD τ).loc main_arg2)) (ix1 n) := by
  rw [biasRow_eq]
  exact shapeCast_a_1a_apply _ shapeCasts_S1024_S1x1024 u n

end Cert.KernelIdeal.Head

end
-- ==== Proof.KernelValue.lean ====
/-
  The kernel's result as one function of its arguments.

  Grid point `t` (of 32) reads rows `1024·t … 1024·t + 1023` of `x`, the whole transposed pooled weight and the
  pooled bias row, and writes back rows `1024·t … 1024·t + 1023` of a one-column array: entry `(1024·t + p, 0)` is
  the maximum over the features of the activated pre-activations of row `1024·t + p`. The 32 blocks tile the
  32768 rows, so after the launch the one-column array holds, at `(r, 0)`, the row maximum of row `r`; the last
  host line drops the unit axis, leaving the row maxima as a vector: the specification's `result` at the pooled
  weight and pooled bias the host lines before the launch compute.
-/
import proofs.«164807_j58128087384687_1_alg».proof.Proof.Gen.KernelIdeal.Frame
import proofs.«164807_j58128087384687_1_alg».proof.Proof.KernelBlock
import proofs.«164807_j58128087384687_1_alg».proof.Proof.KernelHead
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.RowMax

open Cert.KernelIdeal Cert.KernelIdeal.Gen Cert.KernelIdeal.Head Cert.KernelIdeal.Block
open Idealize.ShloMosaic Idealize.ShloMosaic.TcCoe Idealize.SL.Sem
open Idealize.ShloMosaic.StableHlo Idealize.ShloMosaic.ValueIdx Cert.RowMaxSpec
open Idealize.ShloMosaic.Pipeline (Dat)

variable (m : (ℓ : Loc nD τ sig) → Buf (Elt Ideal) ℓ) (ρ : Dev nD → PrngReg)

/-- The specification at this program's arguments: `x` as launched, the weight and the bias pooled. -/
abbrev spec (c : Dev nD) : (⟨1, ![32768]⟩ : Shape).Idx → EReal :=
  result (m ((c : Thread nD τ).loc main_arg0)) (pooledWeight (m ((c : Thread nD τ).loc main_arg1))) (pooledBias (m ((c : Thread nD τ).loc main_arg2)))

/-- The one-column array the launch leaves: the row maximum of row `r` at `(r, 0)`. -/
def column (c : Dev nD) : S32768x1.Idx → EReal := fun i =>
  rowMax (m ((c : Thread nD τ).loc main_arg0)) (pooledWeight (m ((c : Thread nD τ).loc main_arg1))) (pooledBias (m ((c : Thread nD τ).loc main_arg2))) (i 0)

theorem zero_offsets : (![0, 0] : Fin 2 → Nat) = fun _ => 0 := funext fun a => by fin_cases a <;> rfl

/-- The printed index maps over the grid: the `x` block and the output block move with the point along the rows, the
    weight and the bias stay put. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt_32 (t : Fin cfg0.N) : t.val < 32 := lt_of_lt_of_eq t.isLt N_0

/-! ## The blocks a point reads -/

/-- Row `p` of point `t`'s block of `x` is row `1024·t + p` of `x`. -/
theorem xblk_apply (c : Dev nD) (t : Fin cfg0.N) (p k : Fin 1024) :
    iblk m c 0 t (ix2 p k)
      = m ((c : Thread nD τ).loc main_arg0) (ix2 (⟨t.val * 1024 + p.val, by have := point_lt_32 t; omega⟩ : Fin 32768) k) := by
  obtain ⟨e0, e1, -⟩ := block_indices t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 1024 + 1 * p.val = t.val * 1024 + p.val; omega
  | ⟨1, _⟩ => show win0_0.index t (1 : Fin 2) * 1024 + 1 * k.val = k.val; omega

/-- Every point's weight block is the whole transposed pooled weight. -/
theorem wblk_apply (c : Dev nD) (t : Fin cfg0.N) (k n : Fin 1024) :
    iblk m c 1 t (ix2 k n) = pooledWeight (m ((c : Thread nD τ).loc main_arg1)) (ix2 n k) := by
  obtain ⟨-, -, e2, e3, -⟩ := block_indices t
  refine Eq.trans ?_ (weightT_apply m c k n)
  show V m c main_v9 (((cfg0.win 1).blk t).view.emb (ix2 k n)) = V m c main_v9 (ix2 k n)
  refine congrArg (V m c main_v9) (funext fun a => Fin.ext ?_)
  match a with
  | ⟨0, _⟩ => show win0_1.index t (0 : Fin 2) * 1024 + 1 * k.val = k.val; omega
  | ⟨1, _⟩ => show win0_1.index t (1 : Fin 2) * 1024 + 1 * n.val = n.val; omega

/-- Every point's bias block is the pooled bias row. -/
theorem bblk_apply (c : Dev nD) (t : Fin cfg0.N) (u : Fin 1) (n : Fin 1024) :
    iblk m c 2 t (ix2 u n) = pooledBias (m ((c : Thread nD τ).loc main_arg2)) (ix1 n) := by
  obtain ⟨-, -, -, -, e4, e5, -⟩ := block_indices t
  refine Eq.trans ?_ (biasRow_apply m c u n)
  show V m c main_v10 (((cfg0.win 2).blk t).view.emb (ix2 u n)) = V m c main_v10 (ix2 u n)
  refine congrArg (V m c main_v10) (funext fun a => Fin.ext ?_)
  match a with
  | ⟨0, _⟩ => show win0_2.index t (0 : Fin 2) * 1 + 1 * u.val = u.val; omega
  | ⟨1, _⟩ => show win0_2.index t (1 : Fin 2) * 1024 + 1 * n.val = n.val; omega

/-! ## What a point writes back, and the array after the launch -/

/-- WHAT POINT `t` WRITES BACK is block `t` of the column of row maxima. -/
theorem written_back (c : Dev nD) (t : Fin cfg0.N) :
    (dats m 0 c).flushed 3 t = ((cfg0.win 3).blk t).view.read (Elt Ideal) (column m c) := by
  show (cfg0.win 3).cut (grid0.coords t) ((dats m 0 c).after 3 t) = _
  rw [after0_3]
  unfold out0_3
  rw [View.canon_unit_zero zero_offsets]
  simp only [View.ld_unit_zero (S := S1024x1024) zero_offsets, View.ld_unit_zero (S := S1x1024) zero_offsets]
  obtain ⟨-, -, -, -, -, -, e6, e7⟩ := block_indices t
  funext j
  obtain ⟨p, u, rfl⟩ : ∃ (p : Fin 1024) (u : Fin 1), j = ix2 p u := ⟨j 0, j 1, eq_ix2 j⟩
  have hrow : (((cfg0.win 3).blk t).view.emb (ix2 p u)) 0 = (⟨t.val * 1024 + p.val, by have := point_lt_32 t; omega⟩ : Fin 32768) :=
    Fin.ext (show win0_3.index t (0 : Fin 2) * 1024 + 1 * p.val = t.val * 1024 + p.val by omega)
  show k0_pay1 (F := Ideal) (iblk m c 0 t) (iblk m c 1 t) (iblk m c 2 t) (ix2 p u) = column m c (((cfg0.win 3).blk t).view.emb (ix2 p u))
  refine (pay_apply (iblk m c 0 t) (iblk m c 1 t) (iblk m c 2 t) p u).trans ?_
  unfold column rowMax
  rw [hrow]
  refine congrArg (fun f => Finset.fold max (Ideal.ofBits .f32 0xFF800000#32) f (Finset.univ : Finset (Fin 1024))) (funext fun n => congrArg act ?_)
  unfold pre
  rw [bblk_apply m c t 0 n]
  refine congrArg (· + _) (Finset.sum_congr rfl fun k _ => ?_)
  rw [xblk_apply m c t p k, wblk_apply m c t k n]

/-- An index of the one-column array is in point `t`'s block iff each coordinate is in the block's range. -/
theorem mem_rows_block (t : Fin cfg0.N) (i : S32768x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v11).slice (win0_3.rect t)).set ↔ _
  rw [View.set_slice_whole, Rect.mem_set_unit]
  exact Iff.rfl

/-- Every row is in some point's block: row `r` in that of point `r / 1024`. -/
theorem rows_covered (i : S32768x1.Idx) : ∃ t : Fin cfg0.N, (cfg0.win 3).flush t = true ∧ i ∈ ((cfg0.win 3).blk t).view.set := by
  have hi0 : (i 0).val < 32768 := (i 0).isLt
  have hi1 : (i 1).val < 1 := (i 1).isLt
  obtain ⟨t, ht⟩ : ∃ t : Fin cfg0.N, t.val = (i 0).val / 1024 :=
    ⟨⟨(i 0).val / 1024, by show (i 0).val / 1024 < grid0.N; rw [N_0]; omega⟩, rfl⟩
  obtain ⟨-, -, -, -, -, -, e6, e7⟩ := block_indices t
  refine ⟨t, flush0_3 t, ?_⟩
  rw [mem_rows_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1 ≤ (i 1).val ∧ (i 1).val < win0_3.index t (1 : Fin 2) * 1 + 1; omega

/-- THE ONE-COLUMN ARRAY after the launch is the column of row maxima. -/
theorem column_after_launch (c : Dev nD) : (dats m 0 c).arrAt 3 cfg0.N = column m c :=
  (dats m 0 c).arrAt_eq_of_cover 3 (column m c) (fun t _ => written_back m c t) rows_covered

/-! ## The last host line, and the run -/

/-- Dropping the unit axis of the column leaves the specification's vector. -/
theorem squeeze_column (c : Dev nD) :
    shapeCast S32768 (column m c) shapeCasts_S32768x1_S32768 = spec m c := by
  funext i
  obtain ⟨r, rfl⟩ : ∃ r : Fin 32768, i = ix1 r := ⟨i 0, eq_ix1 i⟩
  refine (shapeCast_apply _ shapeCasts_S32768x1_S32768 (ix1 r) (ix2 r (0 : Fin 1)) ?_).trans rfl
  rw [Shape.rowMajor_val_one, Shape.rowMajor_val_two]
  show r.val * 1 + 0 = r.val
  omega

/-- The program's result buffer after the last host line. -/
theorem tail_eq (c : Dev nD) :
    Pipeline.afterTail₀ cfgs (dats m) 0 (V0 m) [hostOps1] c main_v12 = spec m c := by
  unfold Pipeline.afterTail₀
  show StableHlo.after hostOps1 _ (Proc.devRef .tc main_v12) = _
  after_results
  have e := (Pipeline.withArrays_arr spec0 launch0.win.arr_inj c (V0 m c) (fun w => (dats m 0 c).arrAt w cfg0.N) 3).trans (column_after_launch m c)
  exact (congrArg (fun A : S32768x1.Idx → EReal => shapeCast S32768 A shapeCasts_S32768x1_S32768) e).trans (squeeze_column m c)

/-- THE RUN: every weakly fair execution of the program terminates with the result buffer at the specification's
    vector and the three arguments as launched. -/
theorem run : θ_run defs (onTc (τ := τ) (main (F := Ideal))) ⟨m, fun _ => 0, ρ⟩ fun r => ∀ c : Dev nD,
      r.2.mem ((c.tc : Thread nD τ).loc main_v12) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v12 (Pipeline.mem_restRefs_of main_v12 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.RowMax

end
-- ==== Proof.RefValue.lean ====
/-
  The reference, read entry by entry.

  The reference pools the weight and the bias (rows of four averaged), contracts each row of `x` against each
  row of the pooled weight, adds the pooled bias, applies the doubled tanh-GELU with the cube bracketed from the
  left, and takes each row's maximum over the 1024 features from −∞. With `wp` and `bp` standing for its
  own pooled weight and pooled bias, its result is the specification's `result x wp bp`: the bracketing of the
  cube is immaterial because multiplication of extended reals is associative.
-/
import proofs.«164807_j58128087384687_1_alg».proof.Proof.Gen.ReferenceIdeal.Read
import proofs.«164807_j58128087384687_1_alg».proof.Proof.Spec
import Idealize.ShloMosaic.Lib.ValueIdx
import Idealize.ShloMosaic.PureOps.Ideal.Laws

noncomputable section

namespace Cert.ReferenceIdeal.RowMax

open Cert.ReferenceIdeal Cert.ReferenceIdeal.Gen Cert.ReferenceIdeal.Read Idealize.ShloMosaic Idealize.ShloMosaic.ValueIdx Cert.RowMaxSpec

/-- The pre-activation at `(r, n)`: row `r` of `x` against row `n` of the pooled weight, plus the pooled bias
    at `n` (the bias is laid out as one row and repeated under every row). -/
theorem preact_apply (x : (⟨S32768x1024, .f32⟩ : BufTy).Contents (Elt Ideal)) (w : (⟨S4096x1024, .f32⟩ : BufTy).Contents (Elt Ideal))
    (b : (⟨S4096, .f32⟩ : BufTy).Contents (Elt Ideal)) (r : Fin 32768) (n : Fin 1024) :
    val_main_v11 (F := Ideal) x w b (ix2 r n) = pre x (val_main_v3 (F := Ideal) w) (val_main_v7 (F := Ideal) b) r n := by
  have el : ∀ k : Fin 1024, lidx_main_v8 (ix2 r n) k = ix2 r k := fun k =>
    funext fun a => Fin.ext (by match a with | ⟨0, _⟩ => rfl | ⟨1, _⟩ => rfl)
  have er : ∀ k : Fin 1024, ridx_main_v8 (ix2 r n) k = ix2 n k := fun k =>
    funext fun a => Fin.ext (by match a with | ⟨0, _⟩ => rfl | ⟨1, _⟩ => rfl)
  have eb : idx_main_v9 (idx_main_v10 (ix2 r n)) = ix1 n :=
    funext fun a => Fin.ext (by match a with | ⟨0, _⟩ => rfl)
  rw [val_main_v11_apply, val_main_v8_apply, val_main_v10_apply, val_main_v9_apply, eb]
  unfold pre
  simp only [el, er]
  rfl

/-- After the activation: the left-bracketed doubled tanh-GELU of the pre-activation. Every operation between the two
    is entry by entry and every constant is repeated at every entry. -/
theorem activated_apply (x : (⟨S32768x1024, .f32⟩ : BufTy).Contents (Elt Ideal)) (w : (⟨S4096x1024, .f32⟩ : BufTy).Contents (Elt Ideal))
    (b : (⟨S4096, .f32⟩ : BufTy).Contents (Elt Ideal)) (i : S32768x1024.Idx) :
    val_main_v26 (F := Ideal) x w b i = actLeft (val_main_v11 (F := Ideal) x w b i) := rfl

/-- The source entry over row `r` at feature `k`. -/
theorem lift_row (h : S32768x1024.Reduces [1] S32768) (r : Fin 32768) (k : Fin (S32768x1024.size 1)) :
    h.lift (ix1 r) k = ix2 r (⟨k.val, k.isLt⟩ : Fin 1024) := by
  funext c; apply Fin.ext
  fin_cases c <;> rfl

/-- THE REFERENCE'S RESULT is the specification at its own pooled weight and pooled bias. -/
theorem value_eq (x : (⟨S32768x1024, .f32⟩ : BufTy).Contents (Elt Ideal)) (w : (⟨S4096x1024, .f32⟩ : BufTy).Contents (Elt Ideal))
    (b : (⟨S4096, .f32⟩ : BufTy).Contents (Elt Ideal)) :
    val_main_v27 (F := Ideal) x w b = result x (val_main_v3 (F := Ideal) w) (val_main_v7 (F := Ideal) b) := by
  funext i
  obtain ⟨r, rfl⟩ : ∃ r : Fin 32768, i = ix1 r := ⟨i 0, eq_ix1 i⟩
  unfold val_main_v27
  have hred : S32768x1024.Reduces [1] S32768 := by decide
  refine (Host.reduce_eq_fold_single FloatOps.maximumf _ _ reducesTo_S32768x1024_S32768_d1 hred h_S_ (ix1 r)).trans ?_
  show Finset.fold max (Ideal.ofBits .f32 0xFF800000#32) _ (Finset.univ : Finset (Fin 1024))
    = Finset.fold max (Ideal.ofBits .f32 0xFF800000#32) (fun n => act (pre x (val_main_v3 (F := Ideal) w) (val_main_v7 (F := Ideal) b) r n)) (Finset.univ : Finset (Fin 1024))
  refine congrArg (fun f => Finset.fold max (Ideal.ofBits .f32 0xFF800000#32) f (Finset.univ : Finset (Fin 1024))) (funext fun n => ?_)
  show val_main_v26 (F := Ideal) x w b (hred.lift (ix1 r) n) = _
  rw [lift_row hred r n, activated_apply, actLeft_eq]
  exact congrArg act (preact_apply x w b r ⟨n.val, n.isLt⟩)

end Cert.ReferenceIdeal.RowMax

end
-- ==== Proof.lean ====
/-
  A linear layer whose output features are averaged in groups of four, a doubled tanh-GELU, and the maximum of
  each row over the 1024 pooled features: the kernel against its reference, over the extended reals.

  Averaging groups of four output features of `x · weightᵀ + bias` is the same as averaging the corresponding
  rows of the weight and entries of the bias first; both programs do exactly that, by the same host operations,
  so both work with one pooled weight `wp` (1024 × 1024) and one pooled bias `bp` (1024). From there

    * the kernel transposes `wp`, and in 32 blocks of 1024 rows multiplies a block of `x` by the transposed `wp`,
      adds `bp` under every row, applies the activation with the cube formed as `c₁ · ((y · y) · y)`, takes each
      row's maximum from −∞ and stores it in a one-column array, whose unit axis the last host line drops;
    * the reference contracts `x` against `wp` along their second axes, adds `bp`, applies the activation with the
      cube formed as `((c₁ · y) · y) · y`, and takes each row's maximum from −∞.

  Entry by entry both pre-activations are `(∑ k, x[r, k] · wp[n, k]) + bp[n]` (a transposed operand only renames
  the summation), the two cubes agree because multiplication of extended reals is associative, and both maxima are
  the same fold over the same 1024 values. Nothing here needs the inputs to be finite. The narrowing of `x` and of
  the transposed weight to the shorter float format is the identity on extended reals.
-/
import proofs.«164807_j58128087384687_1_alg».proof.Defs
import proofs.«164807_j58128087384687_1_alg».proof.Proof.Gen.Kernel
import proofs.«164807_j58128087384687_1_alg».proof.Proof.Gen.Kernel.Skeleton
import proofs.«164807_j58128087384687_1_alg».proof.Proof.Gen.Kernel.Launch
import proofs.«164807_j58128087384687_1_alg».proof.Proof.Gen.Kernel.Points
import proofs.«164807_j58128087384687_1_alg».proof.Proof.Gen.Kernel.Frame
import proofs.«164807_j58128087384687_1_alg».proof.Proof.Gen.KernelIdeal
import proofs.«164807_j58128087384687_1_alg».proof.Proof.Gen.KernelIdeal.Skeleton
import proofs.«164807_j58128087384687_1_alg».proof.Proof.Gen.KernelIdeal.Launch
import proofs.«164807_j58128087384687_1_alg».proof.Proof.Gen.KernelIdeal.Points
import proofs.«164807_j58128087384687_1_alg».proof.Proof.Gen.KernelIdeal.Frame
import proofs.«164807_j58128087384687_1_alg».proof.Proof.Gen.ReferenceIdeal
import proofs.«164807_j58128087384687_1_alg».proof.Proof.Gen.ReferenceIdeal.Run
import proofs.«164807_j58128087384687_1_alg».proof.Proof.Gen.ReferenceIdeal.Read
import proofs.«164807_j58128087384687_1_alg».proof.Proof.Gen.Pre_finite_inputs
import proofs.«164807_j58128087384687_1_alg».proof.Proof.KernelValue
import proofs.«164807_j58128087384687_1_alg».proof.Proof.RefValue
import Idealize.ShloMosaic.Adequacy
import Idealize.ShloMosaic.Init

noncomputable section

namespace Cert.Proof

open Idealize.ShloMosaic Idealize.ShloMosaic.TcCoe Idealize.SL.Sem

/-- The two programs pool the weight by the same operations: reshape to groups of four rows, sum each group from
    zero, divide by four. -/
theorem pooledWeight_eq (w : (⟨Cert.KernelIdeal.S4096x1024, .f32⟩ : BufTy).Contents (Elt Ideal)) :
    Cert.ReferenceIdeal.Read.val_main_v3 (F := Ideal) w = Cert.KernelIdeal.Head.pooledWeight w := rfl

/-- And the bias likewise. -/
theorem pooledBias_eq (b : (⟨Cert.KernelIdeal.S4096, .f32⟩ : BufTy).Contents (Elt Ideal)) :
    Cert.ReferenceIdeal.Read.val_main_v7 (F := Ideal) b = Cert.KernelIdeal.Head.pooledBias b := rfl

/-- The kernel as printed runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories that agree on `x`, the weight and the bias, both programs end with the vector of row maxima
    `result x wp bp` at one and the same pooled weight and pooled bias. -/
theorem algebraic : Cert.algebraic_KernelIdeal_ReferenceIdeal := by
  intro m ρ m' ρ' _ hagree
  refine ⟨fun c => Cert.KernelIdeal.RowMax.spec m c, Cert.KernelIdeal.RowMax.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RowMax.value_eq,
    (hagree c).1, (hagree c).2.1, (hagree c).2.2, pooledWeight_eq, pooledBias_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
